-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x1 .f32) (main_arg7 : FVec F S1 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x1 .f32) (main_arg7 : FVec F S1 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S128x2 : Shape := ⟨2, ![128, 2]⟩
abbrev S2 : Shape := ⟨1, ![2]⟩
abbrev S1x2 : Shape := ⟨2, ![1, 2]⟩
abbrev S50000x2 : Shape := ⟨2, ![50000, 2]⟩
abbrev S5000x2 : Shape := ⟨2, ![5000, 2]⟩
abbrev S50000x1 : Shape := ⟨2, ![50000, 1]⟩

abbrev nBuf : Space → Nat
  | .hbm => 94
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S128x2, .f32⟩
  | .hbm, ⟨89, _⟩ => ⟨S2, .f32⟩
  | .hbm, ⟨90, _⟩ => ⟨S1x2, .f32⟩
  | .hbm, ⟨91, _⟩ => ⟨S50000x2, .f32⟩
  | .hbm, ⟨92, _⟩ => ⟨S50000x1, .f32⟩
  | .hbm, ⟨93, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x2, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x1_S128x1_S128x2_d1 : Shape.Concatenates [S128x1, S128x1] S128x2 1
  concatenates_S1_S1_S2_d0 : Shape.Concatenates [S1, S1] S2 0
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  slices_S50000x2_S50000x1_0_1 : S50000x2.Slices ![0, 1] S50000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S50000x2.size a
  hwx4_3 : ∀ i : grid4.Coords, EltTy.bits .f32 = 32 ∨ (Rect.block (s := S50000x2) S5000x2.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x1, .f32⟩
  | .hbm, ⟨97, _⟩ => ⟨S1x1, .f32⟩
  | .hbm, ⟨98, _⟩ => ⟨S50000x1, .f32⟩
  | .hbm, ⟨99, _⟩ => ⟨S50000x1, .f32⟩
  | .hbm, ⟨100, _⟩ => ⟨S50000x1, .f32⟩
  | .hbm, ⟨101, _⟩ => ⟨S1x1, .f32⟩
  | .hbm, ⟨102, _⟩ => ⟨S50000x1, .f32⟩
  | .hbm, ⟨103, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KKeep.lean ====
/-
  The kernel's program as a fold of buffer contents through its host stretches and its five regions: a buffer that a
  stretch's operations do not write, and that is not one of a region's arrays, holds after it what it held before.
  Here: each argument array at the boundary where the program next reads it, and the three edge vectors (source
  index, target index, edge weight) the first stretch computes, at the later boundaries where the two aggregations
  read them.
-/
import proofs.«167271_j47682726920388_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- No operation of the host stretch at hand writes the buffer: its contents pass through. -/
macro "keeps" : tactic => `(tactic| exact StableHlo.after_of_forall_not_mem _ _ (List.forall_iff_forall_mem.mp (by
  simp only [hostOps0, hostOps0_1, hostOps0_2, hostOps1, hostOps3, hostOps4, hostOps5, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Through the first three stretches (from the launch to region 0's entry) -/

theorem W3_of_launch (b : Ref sig .tc)
    (h0 : W1 m ρ c (Proc.devRef .tc b) = W0 m ρ c (Proc.devRef .tc b))
    (h1 : W2 m ρ c (Proc.devRef .tc b) = W1 m ρ c (Proc.devRef .tc b))
    (h2 : W3 m ρ c (Proc.devRef .tc b) = W2 m ρ c (Proc.devRef .tc b)) :
    W3 m ρ c (Proc.devRef .tc b) = m ((c : Thread nD τ).loc b) :=
  h2.trans (h1.trans (h0.trans rfl))

theorem W3_arg0 : W3 m ρ c (Proc.devRef .tc main_arg0) = m ((c : Thread nD τ).loc main_arg0) :=
  W3_of_launch m ρ c main_arg0 (by keeps) (by keeps) (by keeps)
theorem W3_arg2 : W3 m ρ c (Proc.devRef .tc main_arg2) = m ((c : Thread nD τ).loc main_arg2) :=
  W3_of_launch m ρ c main_arg2 (by keeps) (by keeps) (by keeps)
theorem W3_arg3 : W3 m ρ c (Proc.devRef .tc main_arg3) = m ((c : Thread nD τ).loc main_arg3) :=
  W3_of_launch m ρ c main_arg3 (by keeps) (by keeps) (by keeps)
theorem W3_arg4 : W3 m ρ c (Proc.devRef .tc main_arg4) = m ((c : Thread nD τ).loc main_arg4) :=
  W3_of_launch m ρ c main_arg4 (by keeps) (by keeps) (by keeps)
theorem W3_arg5 : W3 m ρ c (Proc.devRef .tc main_arg5) = m ((c : Thread nD τ).loc main_arg5) :=
  W3_of_launch m ρ c main_arg5 (by keeps) (by keeps) (by keeps)
theorem W3_arg6 : W3 m ρ c (Proc.devRef .tc main_arg6) = m ((c : Thread nD τ).loc main_arg6) :=
  W3_of_launch m ρ c main_arg6 (by keeps) (by keeps) (by keeps)
theorem W3_arg7 : W3 m ρ c (Proc.devRef .tc main_arg7) = m ((c : Thread nD τ).loc main_arg7) :=
  W3_of_launch m ρ c main_arg7 (by keeps) (by keeps) (by keeps)
theorem W3_arg8 : W3 m ρ c (Proc.devRef .tc main_arg8) = m ((c : Thread nD τ).loc main_arg8) :=
  W3_of_launch m ρ c main_arg8 (by keeps) (by keeps) (by keeps)
theorem W3_arg9 : W3 m ρ c (Proc.devRef .tc main_arg9) = m ((c : Thread nD τ).loc main_arg9) :=
  W3_of_launch m ρ c main_arg9 (by keeps) (by keeps) (by keeps)

/-! ## From region 0's entry on: one step per boundary -/

/-- The bias of the first layer, where the second stretch reshapes it. -/
theorem W4_arg3 : W4 m ρ c (Proc.devRef .tc main_arg3) = m ((c : Thread nD τ).loc main_arg3) :=
  (W4_of_ne m ρ c main_arg3 (by decide)).trans (W3_arg3 m ρ c)

/-- A buffer that neither region 0, nor the stretch after it, nor region 1 touches: from region 0's entry to region 2's. -/
theorem W6_of_W3 (b : Ref sig .tc) (h0 : ∀ w, Pipeline.arrRef spec0 w ≠ b)
    (h1 : W5 m ρ c (Proc.devRef .tc b) = W4 m ρ c (Proc.devRef .tc b)) (h2 : ∀ w, Pipeline.arrRef spec1 w ≠ b) :
    W6 m ρ c (Proc.devRef .tc b) = W3 m ρ c (Proc.devRef .tc b) :=
  (W6_of_ne m ρ c b h2).trans (h1.trans (W4_of_ne m ρ c b h0))

/-- The second layer's weight, where region 2 reads it. -/
theorem W6_arg4 : W6 m ρ c (Proc.devRef .tc main_arg4) = m ((c : Thread nD τ).loc main_arg4) :=
  (W6_of_W3 m ρ c main_arg4 (by decide) (by keeps) (by decide)).trans (W3_arg4 m ρ c)

/-- From region 0's entry to region 2's exit. -/
theorem W7_of_W3 (b : Ref sig .tc) (h0 : ∀ w, Pipeline.arrRef spec0 w ≠ b)
    (h1 : W5 m ρ c (Proc.devRef .tc b) = W4 m ρ c (Proc.devRef .tc b)) (h2 : ∀ w, Pipeline.arrRef spec1 w ≠ b)
    (h3 : ∀ w, Pipeline.arrRef spec2 w ≠ b) :
    W7 m ρ c (Proc.devRef .tc b) = W3 m ρ c (Proc.devRef .tc b) :=
  (W7_of_ne m ρ c b h3).trans (W6_of_W3 m ρ c b h0 h1 h2)

/-- The second layer's bias, where the fourth stretch reshapes it. -/
theorem W7_arg5 : W7 m ρ c (Proc.devRef .tc main_arg5) = m ((c : Thread nD τ).loc main_arg5) :=
  (W7_of_W3 m ρ c main_arg5 (by decide) (by keeps) (by decide) (by decide)).trans (W3_arg5 m ρ c)

/-- The three edge vectors at region 0's exit and at region 2's exit are what the first stretches left. -/
theorem W4_v3 : W4 m ρ c (Proc.devRef .tc main_v3) = W3 m ρ c (Proc.devRef .tc main_v3) := W4_of_ne m ρ c main_v3 (by decide)
theorem W4_v6 : W4 m ρ c (Proc.devRef .tc main_v6) = W3 m ρ c (Proc.devRef .tc main_v6) := W4_of_ne m ρ c main_v6 (by decide)
theorem W4_v29 : W4 m ρ c (Proc.devRef .tc main_v29) = W3 m ρ c (Proc.devRef .tc main_v29) := W4_of_ne m ρ c main_v29 (by decide)
theorem W7_v3 : W7 m ρ c (Proc.devRef .tc main_v3) = W3 m ρ c (Proc.devRef .tc main_v3) :=
  W7_of_W3 m ρ c main_v3 (by decide) (by keeps) (by decide) (by decide)
theorem W7_v6 : W7 m ρ c (Proc.devRef .tc main_v6) = W3 m ρ c (Proc.devRef .tc main_v6) :=
  W7_of_W3 m ρ c main_v6 (by decide) (by keeps) (by decide) (by decide)
theorem W7_v29 : W7 m ρ c (Proc.devRef .tc main_v29) = W3 m ρ c (Proc.devRef .tc main_v29) :=
  W7_of_W3 m ρ c main_v29 (by decide) (by keeps) (by decide) (by decide)

/-- From region 0's entry to region 3's exit. -/
theorem W9_of_W3 (b : Ref sig .tc) (h0 : ∀ w, Pipeline.arrRef spec0 w ≠ b)
    (h1 : W5 m ρ c (Proc.devRef .tc b) = W4 m ρ c (Proc.devRef .tc b)) (h2 : ∀ w, Pipeline.arrRef spec1 w ≠ b)
    (h3 : ∀ w, Pipeline.arrRef spec2 w ≠ b) (h4 : W8 m ρ c (Proc.devRef .tc b) = W7 m ρ c (Proc.devRef .tc b))
    (h5 : ∀ w, Pipeline.arrRef spec3 w ≠ b) :
    W9 m ρ c (Proc.devRef .tc b) = W3 m ρ c (Proc.devRef .tc b) :=
  (W9_of_ne m ρ c b h5).trans (h4.trans (W7_of_W3 m ρ c b h0 h1 h2 h3))

/-- The heads' weights and biases, where the fifth stretch joins them. -/
theorem W9_arg6 : W9 m ρ c (Proc.devRef .tc main_arg6) = m ((c : Thread nD τ).loc main_arg6) :=
  (W9_of_W3 m ρ c main_arg6 (by decide) (by keeps) (by decide) (by decide) (by keeps) (by decide)).trans (W3_arg6 m ρ c)
theorem W9_arg7 : W9 m ρ c (Proc.devRef .tc main_arg7) = m ((c : Thread nD τ).loc main_arg7) :=
  (W9_of_W3 m ρ c main_arg7 (by decide) (by keeps) (by decide) (by decide) (by keeps) (by decide)).trans (W3_arg7 m ρ c)
theorem W9_arg8 : W9 m ρ c (Proc.devRef .tc main_arg8) = m ((c : Thread nD τ).loc main_arg8) :=
  (W9_of_W3 m ρ c main_arg8 (by decide) (by keeps) (by decide) (by decide) (by keeps) (by decide)).trans (W3_arg8 m ρ c)
theorem W9_arg9 : W9 m ρ c (Proc.devRef .tc main_arg9) = m ((c : Thread nD τ).loc main_arg9) :=
  (W9_of_W3 m ρ c main_arg9 (by decide) (by keeps) (by decide) (by decide) (by keeps) (by decide)).trans (W3_arg9 m ρ c)

/-- The second layer's output passes the fifth stretch (which only joins the heads' parameters). -/
theorem W10_v61 : W10 m ρ c (Proc.devRef .tc main_v61) = W9 m ρ c (Proc.devRef .tc main_v61) := by keeps

end Cert.KernelIdeal.Fold

end
-- ==== Proof.Spec.lean ====
/-
  The mathematics of the network, index by index, over the extended reals.

  A graph-convolution layer maps node features `h` (50000 nodes, 128 features) to
  `relu (A (h · W) + b)`, where `A` is the (normalised, self-looped) adjacency aggregation — here an arbitrary
  function of the projected features, since both programs compute it by the same host operations — and the two
  output heads are `h₂ · Wₜ + bₜ` and `h₂ · Wₑ + bₑ`. The pieces below are those of one layer and of the heads:
  a row-by-column product, a bias followed by `max · 0`, and a product plus bias for a weight of one or of two columns.
-/
import Idealize.ShloMosaic.PureOps.Ideal
import Idealize.ShloMosaic.Lib.ValueIdx

noncomputable section

namespace Cert.Spec

open Idealize.ShloMosaic Idealize.ShloMosaic.ValueIdx

/-- node features: 50000 × 128 -/
abbrev SND : Shape := ⟨2, ![50000, 128]⟩
/-- a square weight: 128 × 128 -/
abbrev SDD : Shape := ⟨2, ![128, 128]⟩
/-- a bias as a row: 1 × 128 -/
abbrev S1D : Shape := ⟨2, ![1, 128]⟩
/-- the two heads' weights side by side: 128 × 2 -/
abbrev SD2 : Shape := ⟨2, ![128, 2]⟩
/-- the two heads' biases side by side: 1 × 2 -/
abbrev S12 : Shape := ⟨2, ![1, 2]⟩
/-- both heads' outputs: 50000 × 2 -/
abbrev SN2 : Shape := ⟨2, ![50000, 2]⟩
/-- one head's output: 50000 × 1 -/
abbrev SN1 : Shape := ⟨2, ![50000, 1]⟩
/-- one head's weight: 128 × 1 -/
abbrev SD1 : Shape := ⟨2, ![128, 1]⟩
/-- a bias vector: 128 -/
abbrev SD : Shape := ⟨1, ![128]⟩
/-- one head's bias: 1 -/
abbrev S1 : Shape := ⟨1, ![1]⟩

/-- `(h · W)(n, j) = ∑ₖ h(n, k) · W(k, j)`. -/
def mm (h : FVec Ideal SND .f32) (W : FVec Ideal SDD .f32) : FVec Ideal SND .f32 :=
  fun i => ∑ k : Fin 128, h (ix2 (i 0) k) * W (ix2 k (i 1))

/-- `max (a(n, j) + b(j), 0)`, the bias a row. -/
def biasRelu (a : FVec Ideal SND .f32) (b : FVec Ideal S1D .f32) : FVec Ideal SND .f32 :=
  fun i => max (a i + b (ix2 0 (i 1))) (Ideal.ofBits .f32 0x00000000#32)

/-- Both heads at once: `(h · [Wₜ | Wₑ])(n, j) + [bₜ | bₑ](j)`, `j < 2`. -/
def heads (h : FVec Ideal SND .f32) (W : FVec Ideal SD2 .f32) (b : FVec Ideal S12 .f32) : FVec Ideal SN2 .f32 :=
  fun i => (∑ k : Fin 128, h (ix2 (i 0) k) * W (ix2 k (i 1))) + b (ix2 0 (i 1))

/-- One head: `(h · W)(n) + b`. -/
def head (h : FVec Ideal SND .f32) (W : FVec Ideal SD1 .f32) (b : FVec Ideal S1 .f32) : FVec Ideal SN1 .f32 :=
  fun i => (∑ k : Fin 128, h (ix2 (i 0) k) * W (ix2 k (i 1))) + b (ix1 0)

end Cert.Spec

end
-- ==== Proof.RefSide.lean ====
/-
  The reference's side. Its program is two graph-convolution layers and two linear heads; read one operation at a time
  (the stages `val_main_vN`), each layer is: a row-by-column product of the features with the weight; the adjacency
  aggregation of that product (gather the source node's row, scale it by the edge weight, add it into the target node's
  row) — the same function `agg` of the edge list in both layers —; the bias added along the rows; and `max · 0`.
  Each head is a product with a one-column weight plus its bias. Below, each such stage is the specification's function
  of the stage before it, index by index.
-/
import proofs.«167271_j47682726920388_1_alg».proof.Proof.RefRun
import proofs.«167271_j47682726920388_1_alg».proof.Proof.RefRead
import proofs.«167271_j47682726920388_1_alg».proof.Proof.Spec

noncomputable section

namespace Cert.ReferenceIdeal.RefSide

open Cert.ReferenceIdeal Cert.ReferenceIdeal.Read Idealize.ShloMosaic Idealize.ShloMosaic.TcCoe Idealize.ShloMosaic.ValueIdx

/-! ## The aggregation both layers share -/

section Agg
variable {F : FTy → Type} [FloatOps F]

/-- The adjacency aggregation as a function of the edge list `x1` and of the projected features `y`: row `e` of the
    gathered matrix is `y`'s row at edge `e`'s source node, scaled by the edge's weight, and the rows are added into
    their edges' target nodes, from zero. -/
def agg (x1 : (⟨S2x800000, .i32⟩ : BufTy).Contents (Elt F)) (y : (⟨S50000x128, .f32⟩ : BufTy).Contents (Elt F)) :
    (⟨S50000x128, .f32⟩ : BufTy).Contents (Elt F) :=
  Host.scatterAdd scatter_S50000x128_S850000x1_S850000x128_1_0_0_1 (val_main_v41 (F := F)) (val_main_v42 (F := F) x1)
    (mulf (Host.gather gather_S50000x128_S850000x1_S850000x128_1_0_n_n_0_1_1128 y (val_main_v36 (F := F) x1)) (val_main_v39 (F := F) x1))

/-- The first layer aggregates the product of the input features with the first weight. -/
theorem v43_eq (x0 : (⟨S50000x128, .f32⟩ : BufTy).Contents (Elt F)) (x1 : (⟨S2x800000, .i32⟩ : BufTy).Contents (Elt F))
    (x2 : (⟨S128x128, .f32⟩ : BufTy).Contents (Elt F)) :
    val_main_v43 (F := F) x0 x1 x2 = agg x1 (val_main_v30 (F := F) x0 x2) := rfl

/-- The second layer aggregates, by the same function of the edge list, the product of the first layer's output with
    the second weight (the program spells the index and weight vectors out a second time; they are the same terms). -/
theorem v61_eq (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v61 (F := F) x0 x1 x2 x3 x4 = agg x1 (val_main_v48 (F := F) x0 x1 x2 x3 x4) := rfl

end Agg

/-! ## The stages at the extended reals -/

/-- A row-by-column product reads row `i 0` of the left factor and column `i 1` of the right one. -/
theorem lidx30 (i : S50000x128.Idx) (k : Fin 128) : lidx_main_v30 i k = ix2 (i 0) k :=
  funext fun a => by match a with | ⟨0, _⟩ => rfl | ⟨1, _⟩ => rfl
theorem ridx30 (i : S50000x128.Idx) (k : Fin 128) : ridx_main_v30 i k = ix2 k (i 1) :=
  funext fun a => by match a with | ⟨0, _⟩ => rfl | ⟨1, _⟩ => rfl
theorem lidx48 (i : S50000x128.Idx) (k : Fin 128) : lidx_main_v48 i k = ix2 (i 0) k :=
  funext fun a => by match a with | ⟨0, _⟩ => rfl | ⟨1, _⟩ => rfl
theorem ridx48 (i : S50000x128.Idx) (k : Fin 128) : ridx_main_v48 i k = ix2 k (i 1) :=
  funext fun a => by match a with | ⟨0, _⟩ => rfl | ⟨1, _⟩ => rfl
theorem lidx66 (i : S50000x1.Idx) (k : Fin 128) : lidx_main_v66 i k = ix2 (i 0) k :=
  funext fun a => by match a with | ⟨0, _⟩ => rfl | ⟨1, _⟩ => rfl
theorem ridx66 (i : S50000x1.Idx) (k : Fin 128) : ridx_main_v66 i k = ix2 k (i 1) :=
  funext fun a => by match a with | ⟨0, _⟩ => rfl | ⟨1, _⟩ => rfl
theorem lidx70 (i : S50000x1.Idx) (k : Fin 128) : lidx_main_v70 i k = ix2 (i 0) k :=
  funext fun a => by match a with | ⟨0, _⟩ => rfl | ⟨1, _⟩ => rfl
theorem ridx70 (i : S50000x1.Idx) (k : Fin 128) : ridx_main_v70 i k = ix2 k (i 1) :=
  funext fun a => by match a with | ⟨0, _⟩ => rfl | ⟨1, _⟩ => rfl

/-- The first layer's product. -/
theorem v30_spec (x0 : (⟨S50000x128, .f32⟩ : BufTy).Contents (Elt Ideal)) (x2 : (⟨S128x128, .f32⟩ : BufTy).Contents (Elt Ideal)) :
    val_main_v30 (F := Ideal) x0 x2 = Cert.Spec.mm x0 x2 := by
  funext i
  rw [val_main_v30_apply]
  unfold Cert.Spec.mm
  exact Finset.sum_congr rfl fun k _ => by rw [lidx30, ridx30]; rfl

/-- The bias is added along the rows: entry `(n, j)` reads the bias vector at `j`. -/
theorem bias_idx (p : Fin 50000) (q : Fin 128) : idx_main_v44 (idx_main_v45 (ix2 p q)) = ix1 q :=
  funext fun a => by match a with | ⟨0, _⟩ => rfl
theorem bias_idx' (p : Fin 50000) (q : Fin 128) : idx_main_v62 (idx_main_v63 (ix2 p q)) = ix1 q :=
  funext fun a => by match a with | ⟨0, _⟩ => rfl

/-- The first layer's output: the aggregated product plus the bias, then `max · 0` — for the bias given as a row
    `bRow` that holds the bias vector. -/
theorem v47_spec (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (bRow : FVec Ideal Cert.Spec.S1D .f32) (hrow : ∀ j : Fin 128, bRow (ix2 0 j) = x3 (ix1 j)) :
    val_main_v47 (F := Ideal) x0 x1 x2 x3 = Cert.Spec.biasRelu (val_main_v43 (F := Ideal) x0 x1 x2) bRow := by
  funext i
  obtain ⟨p, q, rfl⟩ : ∃ (p : Fin 50000) (q : Fin 128), i = ix2 p q := ⟨i 0, i 1, eq_ix2 i⟩
  rw [val_main_v47_apply, val_main_v46_apply, val_main_v45_apply, val_main_v44_apply, val_main_call1_v0_apply, bias_idx,
    ← hrow q]
  rfl

/-- The second layer's product. -/
theorem v48_spec (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v48 (F := Ideal) x0 x1 x2 x3 x4 = Cert.Spec.mm (val_main_v47 (F := Ideal) x0 x1 x2 x3) x4 := by
  funext i
  rw [val_main_v48_apply]
  unfold Cert.Spec.mm
  exact Finset.sum_congr rfl fun k _ => by rw [lidx48, ridx48]; rfl

/-- The second layer's output. -/
theorem v65_spec (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (bRow : FVec Ideal Cert.Spec.S1D .f32) (hrow : ∀ j : Fin 128, bRow (ix2 0 j) = x5 (ix1 j)) :
    val_main_v65 (F := Ideal) x0 x1 x2 x3 x4 x5 = Cert.Spec.biasRelu (val_main_v61 (F := Ideal) x0 x1 x2 x3 x4) bRow := by
  funext i
  obtain ⟨p, q, rfl⟩ : ∃ (p : Fin 50000) (q : Fin 128), i = ix2 p q := ⟨i 0, i 1, eq_ix2 i⟩
  rw [val_main_v65_apply, val_main_v64_apply, val_main_v63_apply, val_main_v62_apply, val_main_call2_v0_apply, bias_idx',
    ← hrow q]
  rfl

/-- A head's bias is one number, read at every node. -/
theorem head_bias_idx (i : S50000x1.Idx) : idx_main_v67 (idx_main_v68 i) = ix1 0 :=
  funext fun a => by match a with | ⟨0, _⟩ => rfl
theorem head_bias_idx' (i : S50000x1.Idx) : idx_main_v71 (idx_main_v72 i) = ix1 0 :=
  funext fun a => by match a with | ⟨0, _⟩ => rfl

/-- The first head. -/
theorem v69_spec (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    val_main_v69 (F := Ideal) x0 x1 x2 x3 x4 x5 x6 x7 = Cert.Spec.head (val_main_v65 (F := Ideal) x0 x1 x2 x3 x4 x5) x6 x7 := by
  funext i
  rw [val_main_v69_apply, val_main_v66_apply, val_main_v68_apply, val_main_v67_apply, head_bias_idx]
  unfold Cert.Spec.head
  rw [show (∑ k : Fin 128, (val_main_v65 (F := Ideal) x0 x1 x2 x3 x4 x5) (lidx_main_v66 i k) * x6 (ridx_main_v66 i k))
      = ∑ k : Fin 128, (val_main_v65 (F := Ideal) x0 x1 x2 x3 x4 x5) (ix2 (i 0) k) * x6 (ix2 k (i 1)) from
    Finset.sum_congr rfl fun k _ => by rw [lidx66, ridx66]; rfl]
  rfl

/-- The second head. -/
theorem v73_spec (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x8 : (⟨S128x1, .f32⟩ : BufTy).Contents (Elt Ideal)) (x9 : (⟨S1, .f32⟩ : BufTy).Contents (Elt Ideal)) :
    val_main_v73 (F := Ideal) x0 x1 x2 x3 x4 x5 x8 x9 = Cert.Spec.head (val_main_v65 (F := Ideal) x0 x1 x2 x3 x4 x5) x8 x9 := by
  funext i
  rw [val_main_v73_apply, val_main_v70_apply, val_main_v72_apply, val_main_v71_apply, head_bias_idx']
  unfold Cert.Spec.head
  rw [show (∑ k : Fin 128, (val_main_v65 (F := Ideal) x0 x1 x2 x3 x4 x5) (lidx_main_v70 i k) * x8 (ridx_main_v70 i k))
      = ∑ k : Fin 128, (val_main_v65 (F := Ideal) x0 x1 x2 x3 x4 x5) (ix2 (i 0) k) * x8 (ix2 k (i 1)) from
    Finset.sum_congr rfl fun k _ => by rw [lidx70, ridx70]; rfl]
  rfl

end Cert.ReferenceIdeal.RefSide

end
-- ==== Proof.KHost.lean ====
/-
  The kernel's host stretches, read against the reference's stages (generic in the float family: nothing here uses
  the extended reals). The first stretches compute, from the edge list alone, the source indices, the target indices
  and the edge weights exactly as the reference does; each later stretch applies to a region's output the same
  aggregation as the reference's corresponding stage, or only re-lays the parameters out (a bias vector as a row, the
  two heads' weights side by side, their biases as a row of two); the last one cuts the two heads' columns apart.
-/
import proofs.«167271_j47682726920388_1_alg».proof.Proof.KKeep
import proofs.«167271_j47682726920388_1_alg».proof.Proof.RefRead
import proofs.«167271_j47682726920388_1_alg».proof.Proof.RefSide
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem
open Idealize.ShloMosaic.Pipeline (Dat Cfg Window)
open Idealize.ShloMosaic.ValueIdx

variable {F : FTy → Type} [FloatOps F]
variable (m : (ℓ : Loc nD τ sig) → Buf (Elt F) ℓ) (ρ : Dev nD → PrngReg) (c : Dev nD)

/-! ## The edge vectors at region 0's entry -/

/-- The source indices: the edge list's first row, then every node once (the self loops). -/
theorem W3_v3 : W3 m ρ c (Proc.devRef .tc main_v3) = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

/-- The target indices: the edge list's second row, then every node once. -/
theorem W3_v6 : W3 m ρ c (Proc.devRef .tc main_v6) = Cert.ReferenceIdeal.Read.val_main_v6 (F := F) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

set_option maxHeartbeats 4000000 in
/-- The edge weights: with `deg` the number of edges into each node, `deg^(-1/2)` where `deg > 0` and `0` elsewhere,
    taken at an edge's source times the same at its target. -/
theorem W3_v29 : W3 m ρ c (Proc.devRef .tc main_v29) = Cert.ReferenceIdeal.Read.val_main_v29 (F := F) (m ((c : Thread nD τ).loc main_arg1)) := by
  show StableHlo.after hostOps0_2 (StableHlo.after hostOps0_1 (StableHlo.after hostOps0 (W0 m ρ c))) (Proc.devRef .tc main_v29) = _
  dsimp only [hostOps0, hostOps0_1, hostOps0_2]
  after_results_simp
  (try simp only [TRef.ofBuf, TRef.toBuf, cast_eq])
  rfl

/-! ## The aggregations -/

set_option maxHeartbeats 4000000 in
/-- After the first product (region 0's output `y`): the stretch aggregates it as the reference does. -/
theorem W5_v43 (y : (⟨S50000x128, .f32⟩ : BufTy).Contents (Elt F)) (hy : W4 m ρ c (Proc.devRef .tc main_v30) = y) :
    W5 m ρ c (Proc.devRef .tc main_v43) = Cert.ReferenceIdeal.RefSide.agg (F := F) (m ((c : Thread nD τ).loc main_arg1)) y := by
  show StableHlo.after hostOps1 (W4 m ρ c) (Proc.devRef .tc main_v43) = _
  dsimp only [hostOps1]
  after_results_simp
  rw [hy, W4_v3 m ρ c, W4_v6 m ρ c, W4_v29 m ρ c, W3_v3 m ρ c, W3_v6 m ρ c, W3_v29 m ρ c]
  rfl

set_option maxHeartbeats 4000000 in
/-- After the second product (region 2's output `y`): the same aggregation. -/
theorem W8_v59 (y : (⟨S50000x128, .f32⟩ : BufTy).Contents (Elt F)) (hy : W7 m ρ c (Proc.devRef .tc main_v46) = y) :
    W8 m ρ c (Proc.devRef .tc main_v59) = Cert.ReferenceIdeal.RefSide.agg (F := F) (m ((c : Thread nD τ).loc main_arg1)) y := by
  show StableHlo.after hostOps3 (W7 m ρ c) (Proc.devRef .tc main_v59) = _
  dsimp only [hostOps3]
  after_results_simp
  rw [hy, W7_v3 m ρ c, W7_v6 m ρ c, W7_v29 m ρ c, W3_v3 m ρ c, W3_v6 m ρ c, W3_v29 m ρ c]
  rfl

/-! ## The parameters re-laid -/

/-- The first layer's bias as a row: entry `(0, j)` is the bias at `j`. -/
theorem W5_v44_row (j : Fin 128) :
    W5 m ρ c (Proc.devRef .tc main_v44) (ix2 0 j) = m ((c : Thread nD τ).loc main_arg3) (ix1 j) := by
  show StableHlo.after hostOps1 (W4 m ρ c) (Proc.devRef .tc main_v44) (ix2 0 j) = _
  dsimp only [hostOps1]
  after_results
  rw [W4_arg3 m ρ c]
  exact shapeCast_a_1a_apply (m ((c : Thread nD τ).loc main_arg3)) shapeCasts_S128_S1x128 0 j

/-- The second layer's bias as a row. -/
theorem W8_v60_row (j : Fin 128) :
    W8 m ρ c (Proc.devRef .tc main_v60) (ix2 0 j) = m ((c : Thread nD τ).loc main_arg5) (ix1 j) := by
  show StableHlo.after hostOps3 (W7 m ρ c) (Proc.devRef .tc main_v60) (ix2 0 j) = _
  dsimp only [hostOps3]
  after_results
  rw [W7_arg5 m ρ c]
  exact shapeCast_a_1a_apply (m ((c : Thread nD τ).loc main_arg5)) shapeCasts_S128_S1x128 0 j

/-- The two heads' weights side by side: column 0 is the first head's weight. -/
theorem W10_v62_col0 (k : Fin 128) :
    W10 m ρ c (Proc.devRef .tc main_v62) (ix2 k 0) = m ((c : Thread nD τ).loc main_arg6) (ix2 k 0) := by
  show StableHlo.after hostOps4 (W9 m ρ c) (Proc.devRef .tc main_v62) (ix2 k 0) = _
  dsimp only [hostOps4]
  after_results
  rw [W9_arg6 m ρ c, W9_arg8 m ρ c]
  exact concatenate_pair_apply_left (t := S128x2) (s₁ := S128x1) (s₂ := S128x1) 1 _ _ concatenates_S128x1_S128x1_S128x2_d1
    (ix2 k 0) rfl (ix2 k 0) (fun b => by match b with | ⟨0, _⟩ => rfl | ⟨1, _⟩ => rfl)

/-- Column 1 is the second head's weight. -/
theorem W10_v62_col1 (k : Fin 128) :
    W10 m ρ c (Proc.devRef .tc main_v62) (ix2 k 1) = m ((c : Thread nD τ).loc main_arg8) (ix2 k 0) := by
  show StableHlo.after hostOps4 (W9 m ρ c) (Proc.devRef .tc main_v62) (ix2 k 1) = _
  dsimp only [hostOps4]
  after_results
  rw [W9_arg6 m ρ c, W9_arg8 m ρ c]
  exact concatenate_pair_apply_right (t := S128x2) (s₁ := S128x1) (s₂ := S128x1) 1 _ _ concatenates_S128x1_S128x1_S128x2_d1
    (ix2 k 1) rfl rfl (ix2 k 0) (fun b hb => by match b with | ⟨0, _⟩ => rfl | ⟨1, _⟩ => exact absurd rfl hb) rfl

/-- The two heads' biases as a row of two: entry `(0, 0)` is the first head's bias. -/
theorem W10_v64_0 :
    W10 m ρ c (Proc.devRef .tc main_v64) (ix2 0 0) = m ((c : Thread nD τ).loc main_arg7) (ix1 0) := by
  show StableHlo.after hostOps4 (W9 m ρ c) (Proc.devRef .tc main_v64) (ix2 0 0) = _
  dsimp only [hostOps4]
  after_results
  rw [W9_arg7 m ρ c, W9_arg9 m ρ c]
  refine (shapeCast_a_1a_apply _ shapeCasts_S2_S1x2 0 0).trans ?_
  exact concatenate_pair_apply_left (t := S2) (s₁ := S1) (s₂ := S1) 0 _ _ concatenates_S1_S1_S2_d0
    (ix1 0) rfl (ix1 0) (fun b => by match b with | ⟨0, _⟩ => rfl)

/-- Entry `(0, 1)` is the second head's bias. -/
theorem W10_v64_1 :
    W10 m ρ c (Proc.devRef .tc main_v64) (ix2 0 1) = m ((c : Thread nD τ).loc main_arg9) (ix1 0) := by
  show StableHlo.after hostOps4 (W9 m ρ c) (Proc.devRef .tc main_v64) (ix2 0 1) = _
  dsimp only [hostOps4]
  after_results
  rw [W9_arg7 m ρ c, W9_arg9 m ρ c]
  refine (shapeCast_a_1a_apply _ shapeCasts_S2_S1x2 0 1).trans ?_
  exact concatenate_pair_apply_right (t := S2) (s₁ := S1) (s₂ := S1) 0 _ _ concatenates_S1_S1_S2_d0
    (ix1 1) rfl rfl (ix1 0) (fun b hb => by match b with | ⟨0, _⟩ => exact absurd rfl hb) rfl

/-! ## The two results: the columns of region 4's output -/

/-- The first result is column 0. -/
theorem W12_v66_at (n : Fin 50000) :
    W12 m ρ c (Proc.devRef .tc main_v66) (ix2 n 0) = W11 m ρ c (Proc.devRef .tc main_v65) (ix2 n 0) := by
  show StableHlo.after hostOps5 (W11 m ρ c) (Proc.devRef .tc main_v66) (ix2 n 0) = _
  dsimp only [hostOps5]
  after_results
  exact extractStridedSlice_apply ![0, 0] _ slices_S50000x2_S50000x1_0_0 (ix2 n 0) (ix2 n 0)
    (fun a => by match a with | ⟨0, _⟩ => exact (Nat.zero_add _).symm | ⟨1, _⟩ => rfl)

/-- The second result is column 1. -/
theorem W12_v67_at (n : Fin 50000) :
    W12 m ρ c (Proc.devRef .tc main_v67) (ix2 n 0) = W11 m ρ c (Proc.devRef .tc main_v65) (ix2 n 1) := by
  show StableHlo.after hostOps5 (W11 m ρ c) (Proc.devRef .tc main_v67) (ix2 n 0) = _
  dsimp only [hostOps5]
  after_results
  exact extractStridedSlice_apply ![0, 1] _ slices_S50000x2_S50000x1_0_1 (ix2 n 0) (ix2 n 1)
    (fun a => by match a with | ⟨0, _⟩ => exact (Nat.zero_add _).symm | ⟨1, _⟩ => rfl)

end Cert.KernelIdeal.Fold

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Region0.lean ====
/-
  Region 0 of the kernel's program, read as a value: what its output array holds when the region ends.

  The region multiplies a 50000 × 128 array of node features by a 128 × 128 weight, one block of 5000 rows at a time. The grid
  has ten points; at point t the body sees rows 5000·t … 5000·t + 4999 of the features (all 128 columns), the whole
  weight, and writes the same rows of the result. An entry (n, j) of the result is the sum over k of
  feature(n, k) · weight(k, j): it depends on ONE row of the features and ONE column of the weight, so a block of rows
  of the result needs only the same block of rows of the features. The ten blocks of 5000 rows tile the 50000 rows
  exactly, so every entry of the result is written, by the point whose number is the row divided by 5000.
-/
import proofs.«167271_j47682726920388_1_alg».proof.Proof.Gen.KernelIdeal.Frame
import proofs.«167271_j47682726920388_1_alg».proof.Proof.Spec
import proofs.«167271_j47682726920388_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offsets (0, 0) of the body's one load per operand and of its one store are zero on both axes: the body reads
    and writes its blocks whole. -/
theorem hz : (![0, 0] : Fin 2 → Nat) = fun _ => 0 := funext fun a => by fin_cases a <;> rfl

/-- The body's result from its two loaded blocks, entry by entry: both operands are narrowed to a shorter format first, which
    changes nothing on the extended reals, and the product is accumulated onto zeros, so entry (p, q) is the plain sum over
    the shared axis of x(p, k) · w(k, q). -/
theorem pay_apply (x : Vec Ideal S5000x128 .f32) (w : Vec Ideal S128x128 .f32) (p : Fin 5000) (q : Fin 128) :
    k0_pay1 x w (ix2 p q) = ∑ k : Fin 128, x (ix2 p k) * w (ix2 k q) := by
  unfold k0_pay1
  refine (PlainDot.matmul_zero_apply (d := dot_S5000x128_S128x128_S5000x128_1_0_0_1_n_n) ⟨rfl, rfl, rfl, rfl, rfl, rfl⟩ none _ _ p q).trans ?_
  rfl

/-- A product of one value of each of two functions depends on the two places only. -/
theorem mul_at {A B : Type} (f : A → Ideal .f32) (g : B → Ideal .f32) {a a' : A} {b b' : B} (ea : a = a') (eb : b = b') :
    f a * g b = f a' * g b' := by rw [ea, eb]

/-- Where the blocks sit, at each of the ten grid points: the features' block is on the same block-row as the result's
    and on block-column 0 (the blocks are as wide as the arrays); the weight's block is always the block (0, 0), the
    whole weight; the result's block-column is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Each of the ten block-rows of the result is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT t WRITES BACK is block t of the product of the two arrays as the region finds them. Entry (p, q) of the
    block is the sum over k of (features' block)(p, k) · (weight's block)(k, q). An entry (y₀, y₁) of a block whose
    block index is (b₀, b₁) and whose sizes are (s₀, s₁) is the array's entry (b₀·s₀ + y₀, b₁·s₁ + y₁). So the features'
    factor is the array's entry (row of the result's entry, k), the block-rows agreeing and the block-column being 0; the
    weight's factor is the array's entry (k, q), its block being (0, 0); and q is the column of the result's entry, the
    result's block-column being 0. That is the product's summand at the result's entry. -/
theorem flushed_eq (c : Dev nD) (t : Fin cfg0.N) :
    (dat0 (F := Ideal) V c).flushed 2 t = ((cfg0.win 2).blk t).view.read (Elt Ideal) (Cert.Spec.mm (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Spec.mm (V c main_arg0) (V c main_arg2) (((cfg0.win 2).blk t).view.emb (ix2 p q))
  refine (pay_apply (iblk0 V c 0 t) (iblk0 V c 1 t) p q).trans ?_
  obtain ⟨e0, e1, e2, e3, e4⟩ := idx_facts t
  refine Finset.sum_congr rfl fun k _ => ?_
  -- the features' entry (p, k) of block t is the array's entry (row of the result's entry, k)
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  -- the weight's entry (k, q) of its one block is the array's entry (k, column of the result's entry)
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact mul_at (V c main_arg0) (V c main_arg2) h0 h1

/-- An entry of the result is in point t's block iff, on each axis, its coordinate is at least the block index times the
    block's size and less than that plus the size. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- EVERY ENTRY IS WRITTEN: row r < 50000 lies in block-row r / 5000 < 10, since 5000·(r / 5000) ≤ r < 5000·(r / 5000) + 5000;
    every column < 128 lies in the one block-column 0. -/
theorem cover (i : S50000x128.Idx) : ∃ t : Fin cfg0.N, (cfg0.win 2).flush t = true ∧ i ∈ ((cfg0.win 2).blk t).view.set := by
  have hi0 : (i 0).val < 50000 := idx2_lt0 i
  have hi1 : (i 1).val < 128 := idx2_lt1 i
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem arr (c : Dev nD) : (dat0 (F := Ideal) V c).arrAt 2 cfg0.N = Cert.Spec.mm (V c main_arg0) (V c main_arg2) := by
  -- each point writes its block of the product, and the blocks cover the array: the array ends holding the product
  exact (dat0 (F := Ideal) V c).arrAt_eq_of_cover 2 _ (fun t _ => flushed_eq V c t) cover

end Cert.KernelIdeal.Region0

end
-- ==== Proof.Region1.lean ====
/-
  Region 1 of the kernel's program, read as a value: what its output array holds when the region ends.

  The region walks a grid of 10 points. At point t it holds a BLOCK of the 50000 × 128 input array: the 5000 rows
  5000·t, …, 5000·t + 4999, all 128 columns; beside it the whole 1 × 128 bias row (the same row at every point);
  and it writes the block of the same rows of the output array. Entry (p, q) of the block it writes is
  max (x(p, q) + b(0, q), 0): it depends on ONE entry of the input block, the one at the same place, and on the
  bias entry of the same column. The ten row ranges split 0, …, 49999 exactly, so every entry (n, j) of the output
  array is written (by point n / 5000) and ends as max (a(n, j) + b(0, j), 0): that is `Cert.Spec.biasRelu`.
-/
import proofs.«167271_j47682726920388_1_alg».proof.Proof.Gen.KernelIdeal.Frame
import proofs.«167271_j47682726920388_1_alg».proof.Proof.Spec
import proofs.«167271_j47682726920388_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offsets (0, 0) of the body's whole-buffer load and store, as the constant zero function. -/
theorem hz : (![0, 0] : Fin 2 → Nat) = fun _ => 0 := funext fun a => by fin_cases a <;> rfl

/-- THE BODY, entry by entry. From a 5000 × 128 block `x` and the 1 × 128 row `b` the body makes
    max (x + (b copied down the 5000 rows), 0). The two reshapes to the same shape change nothing; the copy of the
    row down the rows reads, at (p, q), the row's entry (0, q) — its one row, the same column —; sum and maximum act
    entry by entry; and the zero is the constant whose bit pattern is all zeros, kept as that pattern. So entry
    (p, q) is max (x(p, q) + b(0, q), 0). -/
theorem pay (x : Vec Ideal S5000x128 .f32) (b : Vec Ideal S1x128 .f32) (p : Fin 5000) (q : Fin 128) :
    k1_pay1 x b (ix2 p q) = max (x (ix2 p q) + b (ix2 0 q)) (Ideal.ofBits .f32 0x00000000#32) := by
  unfold k1_pay1
  -- the maximum, then the sum, read at (p, q)
  refine (maximumf_apply _ _ _).trans ?_
  refine congrArg₂ max ?_ rfl
  refine (addf_apply _ _ _).trans ?_
  refine congrArg₂ (· + ·) ?_ ?_
  · -- the block, reshaped to its own shape
    exact congrFun (shapeCast_self x _) _
  · -- the row copied down the rows: at (p, q) it is the row at (0, q), axis 0 of the row having extent 1
    refine (broadcastTo_apply _ _ _ (ix2 0 q) ?_).trans (congrFun (shapeCast_self b _) _)
    intro a
    match a with
    | ⟨0, _⟩ => rfl
    | ⟨1, _⟩ => rfl

/-- WHERE THE BLOCKS LIE, for each of the 10 points: the input block and the output block have the same row-block
    number and column-block number 0; the bias window is always block (0, 0); the output's row-block number is at
    most 9. -/
theorem idx_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the 10 row blocks of the output is some point's block. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The specification read at one index: if `i0` is the index `i2` and `i1` is (0, column of `i2`), then
    max (A(i0) + B(i1), 0) is the specification's entry at `i2`. -/
theorem biasRelu_at (A : FVec Ideal Cert.Spec.SND .f32) (B : FVec Ideal Cert.Spec.S1D .f32)
    (i0 i2 : Cert.Spec.SND.Idx) (i1 : Cert.Spec.S1D.Idx) (h0 : i0 = i2) (h1 : i1 = ix2 0 (i2 1)) :
    max (A i0 + B i1) (Ideal.ofBits .f32 0x00000000#32) = Cert.Spec.biasRelu A B i2 := by
  subst h0 h1; rfl

/-- WHAT POINT `t` WRITES BACK is block `t` of the specification's array. Entry (p, q) of a block with block numbers
    (r, s) sits in its array at (r · 5000 + p, s · 128 + q) (for the bias row: (r · 1 + 0, s · 128 + q)). The input block
    and the output block have the same block numbers, so the input entry the body reads at (p, q) is the array's entry
    at the very index the output entry is written to; the bias block is block (0, 0) and the output's column-block number is
    0, so the bias entry read is (0, q), and q is the column of that index. -/
theorem flushed_eq (c : Dev nD) (t : Fin cfg1.N) :
    (dat1 (F := Ideal) V c).flushed 2 t
      = ((cfg1.win 2).blk t).view.read (Elt Ideal) (Cert.Spec.biasRelu (V c main_v43) (V c main_v44)) := by
  show (cfg1.win 2).cut (grid1.coords t) ((dat1 (F := Ideal) V c).after 2 t) = _
  rw [after1_2]
  unfold out1_2
  -- one store over the whole buffer leaves its value; a load over the whole buffer reads the contents
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.Spec.biasRelu (V c main_v43) (V c main_v44) (((cfg1.win 2).blk t).view.emb (ix2 p q))
  refine (pay (iblk1 V c 0 t) (iblk1 V c 1 t) p q).trans ?_
  obtain ⟨e0, e1, e2, e3, e4, e5⟩ := idx_facts t
  refine biasRelu_at (V c main_v43) (V c main_v44) (((cfg1.win 0).blk t).view.emb (ix2 p q))
    (((cfg1.win 2).blk t).view.emb (ix2 p q)) (((cfg1.win 1).blk t).view.emb (ix2 0 q)) ?_ ?_
  · -- the input entry's place in its array is the output entry's place in its array
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  · -- the bias entry's place is (0, the output entry's column)
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the output array is in point `t`'s block iff on each axis its coordinate lies in the block's range:
    from (block number) · (block extent) up to, not including, that plus the block extent. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- THE BLOCKS FILL THE ARRAY: row n lies in the row block number n / 5000, which is below 10 since n < 50000, and
    n / 5000 · 5000 ≤ n < n / 5000 · 5000 + 5000; every column lies in the one column block 0, …, 127. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

theorem arr (c : Dev nD) : (dat1 (F := Ideal) V c).arrAt 2 cfg1.N = Cert.Spec.biasRelu (V c main_v43) (V c main_v44) := by
  -- every point writes back its block of the specification's array, and the blocks fill the array
  exact (dat1 (F := Ideal) V c).arrAt_eq_of_cover 2 _ (fun t _ => flushed_eq V c t) cover

end Cert.KernelIdeal.Region1

end
-- ==== Proof.Region2.lean ====
/-
  Region 2 of the kernel's program, read as a value: what its output array holds when the region ends.

  The region multiplies a 50000 × 128 array of node features by a 128 × 128 weight, one block of 5000 rows at a time. The grid
  has ten points; at point t the body sees rows 5000·t … 5000·t + 4999 of the features (all 128 columns), the whole
  weight, and writes the same rows of the result. An entry (n, j) of the result is the sum over k of
  feature(n, k) · weight(k, j): it depends on ONE row of the features and ONE column of the weight, so a block of rows
  of the result needs only the same block of rows of the features. The ten blocks of 5000 rows tile the 50000 rows
  exactly, so every entry of the result is written, by the point whose number is the row divided by 5000.
-/
import proofs.«167271_j47682726920388_1_alg».proof.Proof.Gen.KernelIdeal.Frame
import proofs.«167271_j47682726920388_1_alg».proof.Proof.Spec
import proofs.«167271_j47682726920388_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offsets (0, 0) of the body's one load per operand and of its one store are zero on both axes: the body reads
    and writes its blocks whole. -/
theorem hz : (![0, 0] : Fin 2 → Nat) = fun _ => 0 := funext fun a => by fin_cases a <;> rfl

/-- The body's result from its two loaded blocks, entry by entry: the first block is first recast to the shape it already
    has, which leaves every entry where it is; both operands are then narrowed to a shorter format, which changes nothing
    on the extended reals; and the product is accumulated onto zeros. So entry (p, q) is the plain sum over the shared axis
    of x(p, k) · w(k, q). -/
theorem pay_apply (x : Vec Ideal S5000x128 .f32) (w : Vec Ideal S128x128 .f32) (p : Fin 5000) (q : Fin 128) :
    k2_pay1 x w (ix2 p q) = ∑ k : Fin 128, x (ix2 p k) * w (ix2 k q) := by
  unfold k2_pay1
  refine (PlainDot.matmul_zero_apply (d := dot_S5000x128_S128x128_S5000x128_1_0_0_1_n_n) ⟨rfl, rfl, rfl, rfl, rfl, rfl⟩ none _ _ p q).trans ?_
  refine Finset.sum_congr rfl fun k _ => ?_
  show (shapeCast S5000x128 x shapeCasts_S5000x128_S5000x128) (ix2 p k) * w (ix2 k q) = x (ix2 p k) * w (ix2 k q)
  rw [shapeCast_self]

/-- A product of one value of each of two functions depends on the two places only. -/
theorem mul_at {A B : Type} (f : A → Ideal .f32) (g : B → Ideal .f32) {a a' : A} {b b' : B} (ea : a = a') (eb : b = b') :
    f a * g b = f a' * g b' := by rw [ea, eb]

/-- Where the blocks sit, at each of the ten grid points: the features' block is on the same block-row as the result's
    and on block-column 0 (the blocks are as wide as the arrays); the weight's block is always the block (0, 0), the
    whole weight; the result's block-column is 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Each of the ten block-rows of the result is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- WHAT POINT t WRITES BACK is block t of the product of the two arrays as the region finds them. Entry (p, q) of the
    block is the sum over k of (features' block)(p, k) · (weight's block)(k, q). An entry (y₀, y₁) of a block whose
    block index is (b₀, b₁) and whose sizes are (s₀, s₁) is the array's entry (b₀·s₀ + y₀, b₁·s₁ + y₁). So the features'
    factor is the array's entry (row of the result's entry, k), the block-rows agreeing and the block-column being 0; the
    weight's factor is the array's entry (k, q), its block being (0, 0); and q is the column of the result's entry, the
    result's block-column being 0. That is the product's summand at the result's entry. -/
theorem flushed_eq (c : Dev nD) (t : Fin cfg2.N) :
    (dat2 (F := Ideal) V c).flushed 2 t = ((cfg2.win 2).blk t).view.read (Elt Ideal) (Cert.Spec.mm (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Spec.mm (V c main_v45) (V c main_arg4) (((cfg2.win 2).blk t).view.emb (ix2 p q))
  refine (pay_apply (iblk2 V c 0 t) (iblk2 V c 1 t) p q).trans ?_
  obtain ⟨e0, e1, e2, e3, e4⟩ := idx_facts t
  refine Finset.sum_congr rfl fun k _ => ?_
  -- the features' entry (p, k) of block t is the array's entry (row of the result's entry, k)
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  -- the weight's entry (k, q) of its one block is the array's entry (k, column of the result's entry)
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact mul_at (V c main_v45) (V c main_arg4) h0 h1

/-- An entry of the result is in point t's block iff, on each axis, its coordinate is at least the block index times the
    block's size and less than that plus the size. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- EVERY ENTRY IS WRITTEN: row r < 50000 lies in block-row r / 5000 < 10, since 5000·(r / 5000) ≤ r < 5000·(r / 5000) + 5000;
    every column < 128 lies in the one block-column 0. -/
theorem cover (i : S50000x128.Idx) : ∃ t : Fin cfg2.N, (cfg2.win 2).flush t = true ∧ i ∈ ((cfg2.win 2).blk t).view.set := by
  have hi0 : (i 0).val < 50000 := idx2_lt0 i
  have hi1 : (i 1).val < 128 := idx2_lt1 i
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem arr (c : Dev nD) : (dat2 (F := Ideal) V c).arrAt 2 cfg2.N = Cert.Spec.mm (V c main_v45) (V c main_arg4) := by
  -- each point writes its block of the product, and the blocks cover the array: the array ends holding the product
  exact (dat2 (F := Ideal) V c).arrAt_eq_of_cover 2 _ (fun t _ => flushed_eq V c t) cover

end Cert.KernelIdeal.Region2

end
-- ==== Proof.Region3.lean ====
/-
  Region 3 of the kernel's program, read as a value: what its output array holds when the region ends.

  The region walks a grid of 10 points. At point t it holds a BLOCK of the 50000 × 128 input array: the 5000 rows
  5000·t, …, 5000·t + 4999, all 128 columns; beside it the whole 1 × 128 bias row (the same row at every point);
  and it writes the block of the same rows of the output array. Entry (p, q) of the block it writes is
  max (x(p, q) + b(0, q), 0): it depends on ONE entry of the input block, the one at the same place, and on the
  bias entry of the same column. The ten row ranges split 0, …, 49999 exactly, so every entry (n, j) of the output
  array is written (by point n / 5000) and ends as max (a(n, j) + b(0, j), 0): that is `Cert.Spec.biasRelu`.
-/
import proofs.«167271_j47682726920388_1_alg».proof.Proof.Gen.KernelIdeal.Frame
import proofs.«167271_j47682726920388_1_alg».proof.Proof.Spec
import proofs.«167271_j47682726920388_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offsets (0, 0) of the body's whole-buffer load and store, as the constant zero function. -/
theorem hz : (![0, 0] : Fin 2 → Nat) = fun _ => 0 := funext fun a => by fin_cases a <;> rfl

/-- THE BODY, entry by entry. From a 5000 × 128 block `x` and the 1 × 128 row `b` the body makes
    max (x + (b copied down the 5000 rows), 0). The two reshapes to the same shape change nothing; the copy of the
    row down the rows reads, at (p, q), the row's entry (0, q) — its one row, the same column —; sum and maximum act
    entry by entry; and the zero is the constant whose bit pattern is all zeros, kept as that pattern. So entry
    (p, q) is max (x(p, q) + b(0, q), 0). -/
theorem pay (x : Vec Ideal S5000x128 .f32) (b : Vec Ideal S1x128 .f32) (p : Fin 5000) (q : Fin 128) :
    k3_pay1 x b (ix2 p q) = max (x (ix2 p q) + b (ix2 0 q)) (Ideal.ofBits .f32 0x00000000#32) := by
  unfold k3_pay1
  -- the maximum, then the sum, read at (p, q)
  refine (maximumf_apply _ _ _).trans ?_
  refine congrArg₂ max ?_ rfl
  refine (addf_apply _ _ _).trans ?_
  refine congrArg₂ (· + ·) ?_ ?_
  · -- the block, reshaped to its own shape
    exact congrFun (shapeCast_self x _) _
  · -- the row copied down the rows: at (p, q) it is the row at (0, q), axis 0 of the row having extent 1
    refine (broadcastTo_apply _ _ _ (ix2 0 q) ?_).trans (congrFun (shapeCast_self b _) _)
    intro a
    match a with
    | ⟨0, _⟩ => rfl
    | ⟨1, _⟩ => rfl

/-- WHERE THE BLOCKS LIE, for each of the 10 points: the input block and the output block have the same row-block
    number and column-block number 0; the bias window is always block (0, 0); the output's row-block number is at
    most 9. -/
theorem idx_facts : ∀ t : Fin cfg3.N,
    win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the 10 row blocks of the output is some point's block. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- The specification read at one index: if `i0` is the index `i2` and `i1` is (0, column of `i2`), then
    max (A(i0) + B(i1), 0) is the specification's entry at `i2`. -/
theorem biasRelu_at (A : FVec Ideal Cert.Spec.SND .f32) (B : FVec Ideal Cert.Spec.S1D .f32)
    (i0 i2 : Cert.Spec.SND.Idx) (i1 : Cert.Spec.S1D.Idx) (h0 : i0 = i2) (h1 : i1 = ix2 0 (i2 1)) :
    max (A i0 + B i1) (Ideal.ofBits .f32 0x00000000#32) = Cert.Spec.biasRelu A B i2 := by
  subst h0 h1; rfl

/-- WHAT POINT `t` WRITES BACK is block `t` of the specification's array. Entry (p, q) of a block with block numbers
    (r, s) sits in its array at (r · 5000 + p, s · 128 + q) (for the bias row: (r · 1 + 0, s · 128 + q)). The input block
    and the output block have the same block numbers, so the input entry the body reads at (p, q) is the array's entry
    at the very index the output entry is written to; the bias block is block (0, 0) and the output's column-block number is
    0, so the bias entry read is (0, q), and q is the column of that index. -/
theorem flushed_eq (c : Dev nD) (t : Fin cfg3.N) :
    (dat3 (F := Ideal) V c).flushed 2 t
      = ((cfg3.win 2).blk t).view.read (Elt Ideal) (Cert.Spec.biasRelu (V c main_v59) (V c main_v60)) := by
  show (cfg3.win 2).cut (grid3.coords t) ((dat3 (F := Ideal) V c).after 2 t) = _
  rw [after3_2]
  unfold out3_2
  -- one store over the whole buffer leaves its value; a load over the whole buffer reads the contents
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Cert.Spec.biasRelu (V c main_v59) (V c main_v60) (((cfg3.win 2).blk t).view.emb (ix2 p q))
  refine (pay (iblk3 V c 0 t) (iblk3 V c 1 t) p q).trans ?_
  obtain ⟨e0, e1, e2, e3, e4, e5⟩ := idx_facts t
  refine biasRelu_at (V c main_v59) (V c main_v60) (((cfg3.win 0).blk t).view.emb (ix2 p q))
    (((cfg3.win 2).blk t).view.emb (ix2 p q)) (((cfg3.win 1).blk t).view.emb (ix2 0 q)) ?_ ?_
  · -- the input entry's place in its array is the output entry's place in its array
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  · -- the bias entry's place is (0, the output entry's column)
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the output array is in point `t`'s block iff on each axis its coordinate lies in the block's range:
    from (block number) · (block extent) up to, not including, that plus the block extent. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- THE BLOCKS FILL THE ARRAY: row n lies in the row block number n / 5000, which is below 10 since n < 50000, and
    n / 5000 · 5000 ≤ n < n / 5000 · 5000 + 5000; every column lies in the one column block 0, …, 127. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

theorem arr (c : Dev nD) : (dat3 (F := Ideal) V c).arrAt 2 cfg3.N = Cert.Spec.biasRelu (V c main_v59) (V c main_v60) := by
  -- every point writes back its block of the specification's array, and the blocks fill the array
  exact (dat3 (F := Ideal) V c).arrAt_eq_of_cover 2 _ (fun t _ => flushed_eq V c t) cover

end Cert.KernelIdeal.Region3

end
-- ==== Proof.Region4.lean ====
/-
  Region 4 of the kernel's program, read as a value: what its output array holds when the region ends.

  The region walks a grid of 10 points. At point t it sees rows 5000·t … 5000·t + 4999 of the node features
  (a 5000 × 128 block), the whole 128 × 2 weight and the whole 1 × 2 bias row, and it writes rows
  5000·t … 5000·t + 4999 of the 50000 × 2 output. Entry (p, q) of the block it writes is
  ∑ₖ x(p, k) · W(k, q) + b(0, q): a row of the feature block against a column of the weight, plus the bias of
  that column. Since the ten row blocks tile the 50000 rows exactly, the output array ends as that same formula
  at every (n, q), which is `Cert.Spec.heads`.
-/
import proofs.«167271_j47682726920388_1_alg».proof.Proof.Gen.KernelIdeal.Frame
import proofs.«167271_j47682726920388_1_alg».proof.Proof.Spec
import proofs.«167271_j47682726920388_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offset (0, 0) is the zero offset on both axes: a load or a store at it touches the whole buffer. -/
theorem hz : (![0, 0] : Fin 2 → Nat) = fun _ => 0 := funext fun a => by fin_cases a <;> rfl

/-- THE BODY'S ARITHMETIC, entry by entry. For a feature block `x` (5000 × 128), the weight `w` (128 × 2) and the
    bias row `b` (1 × 2), entry (p, q) of what the body stores is ∑ₖ x(p, k) · w(k, q) + b(0, q).
    Over the extended reals the narrowing of the two operands to the shorter float format changes nothing, a
    reshape to the same shape is the identity, the product into an all-zero accumulator is the plain sum over the
    shared axis, and the bias row repeated down the 5000 rows is read at its only row. -/
theorem pay (x : Vec Ideal S5000x128 .f32) (w : Vec Ideal S128x2 .f32) (b : Vec Ideal S1x2 .f32) (p : Fin 5000) (q : Fin 2) :
    k4_pay1 x w b (ix2 p q) = (∑ k : Fin 128, x (ix2 p k) * w (ix2 k q)) + b (ix2 (0 : Fin 1) q) := by
  unfold k4_pay1
  refine (addf_apply _ _ _).trans ?_
  refine congrArg₂ (· + ·) ?_ ?_
  · -- the product: row p of the block against column q of the weight
    refine (PlainDot.matmul_zero_apply ⟨rfl, rfl, rfl, rfl, rfl, rfl⟩ none _ _ p q).trans ?_
    refine Finset.sum_congr rfl fun k _ => ?_
    rw [truncf_apply, truncf_apply, shapeCast_self, shapeCast_self]
  · -- the bias: every row of the repeated bias is its one row
    refine (broadcastTo_1b_ab_apply _ _ p q).trans ?_
    rw [shapeCast_self]

/-- WHERE THE BLOCKS SIT, for every grid point t. The feature block and the output block have the same block row
    (both are block row t) and block column 0; the weight and the bias are always their one block (0, 0). -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 :=
  (by decide +kernel : ∀ t : Fin grid4.N, _)

/-- Each of the ten block rows of the output is the block of some grid point. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- WHAT POINT t WRITES BACK is block t of `Cert.Spec.heads` of the three input arrays.
    An entry (p, q) of a block sits in its array at (block row · 5000 + p, block column · 2 + q), and likewise with
    each window's own block extents. So entry (p, q) of the block written at t is the array entry (n, q) with
    n = 5000 · t + p; the feature row it uses is row p of the feature block at t, which is row n of the feature
    array; the weight and the bias are read whole. Hence the entry is ∑ₖ h(n, k) · W(k, q) + b(0, q). -/
theorem flushed_eq (c : Dev nD) (t : Fin cfg4.N) :
    (dat4 (F := Ideal) V c).flushed 3 t = ((cfg4.win 3).blk t).view.read (Elt Ideal) (Cert.Spec.heads (V c main_v61) (V c main_v62) (V c main_v64)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x2) hz, View.ld_unit_zero (S := S1x2) hz]
  funext j
  obtain ⟨p, q, rfl⟩ : ∃ (p : Fin 5000) (q : Fin 2), j = ix2 p q := ⟨j 0, j 1, eq_ix2 j⟩
  refine (pay (iblk4 V c 0 t) (iblk4 V c 1 t) (iblk4 V c 2 t) p q).trans ?_
  obtain ⟨e00, e01, e10, e11, e20, e21, e31⟩ := idx_facts t
  show _ = Cert.Spec.heads (V c main_v61) (V c main_v62) (V c main_v64) (((cfg4.win 3).blk t).view.emb (ix2 p q))
  unfold Cert.Spec.heads
  refine congrArg₂ (· + ·) (Finset.sum_congr rfl fun k _ => congrArg₂ (· * ·) ?_ ?_) ?_
  · -- entry (p, k) of the feature block is the feature array at (the output entry's row, k)
    show V c main_v61 (((cfg4.win 0).blk t).view.emb (ix2 p k)) = _
    refine congrArg (V c main_v61) (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * k.val = k.val; omega
  · -- entry (k, q) of the weight's one block is the weight at (k, the output entry's column)
    show V c main_v62 (((cfg4.win 1).blk t).view.emb (ix2 k q)) = _
    refine congrArg (V c main_v62) (funext fun a => Fin.ext ?_)
    match a with
    | ⟨0, _⟩ => show win4_1.index t (0 : Fin 2) * 128 + 1 * k.val = k.val; omega
    | ⟨1, _⟩ => show win4_1.index t (1 : Fin 2) * 2 + 1 * q.val = win4_3.index t (1 : Fin 2) * 2 + 1 * q.val; omega
  · -- entry (0, q) of the bias' one block is the bias at (0, the output entry's column)
    show V c main_v64 (((cfg4.win 2).blk t).view.emb (ix2 (0 : Fin 1) q)) = _
    refine congrArg (V c main_v64) (funext fun a => Fin.ext ?_)
    match a with
    | ⟨0, _⟩ => show win4_2.index t (0 : Fin 2) * 1 + 1 * 0 = 0; omega
    | ⟨1, _⟩ => show win4_2.index t (1 : Fin 2) * 2 + 1 * q.val = win4_3.index t (1 : Fin 2) * 2 + 1 * q.val; omega

/-- An entry of the output array lies in point t's block iff, on each axis, its coordinate is in the range
    [block index · extent, block index · extent + extent). -/
theorem mem_blk (t : Fin cfg4.N) (i : S50000x2.Idx) :
    i ∈ ((cfg4.win 3).blk t).view.set ↔ ∀ a : Fin 2, win4_3.index t a * S5000x2.size a ≤ (i a).val ∧ (i a).val < win4_3.index t a * S5000x2.size a + S5000x2.size a := by
  show i ∈ ((View.whole main_v65).slice (win4_3.rect t)).set ↔ _
  rw [View.set_slice_whole, Rect.mem_set_unit]
  exact Iff.rfl

/-- THE BLOCKS TILE THE ARRAY: row n of the output lies in block row n / 5000 (and 10 · 5000 = 50000, so that is
    one of the ten), its column in the only block column; and every point writes its block back. -/
theorem cover (i : S50000x2.Idx) : ∃ t : Fin cfg4.N, (cfg4.win 3).flush t = true ∧ i ∈ ((cfg4.win 3).blk t).view.set := by
  have hi0 : (i 0).val < 50000 := (i 0).isLt
  have hi1 : (i 1).val < 2 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 2 ≤ (i 1).val ∧ (i 1).val < win4_3.index t (1 : Fin 2) * 2 + 2; omega

/-- Every point writes its block of `Cert.Spec.heads` and the blocks cover the array: the array ends holding it. -/
theorem arr (c : Dev nD) : (dat4 (F := Ideal) V c).arrAt 3 cfg4.N = Cert.Spec.heads (V c main_v61) (V c main_v62) (V c main_v64) := by
  exact (dat4 V c).arrAt_eq_of_cover 3 _ (fun t _ => flushed_eq V c t) cover

end Cert.KernelIdeal.Region4

end
-- ==== Proof.KFold.lean ====
/-
  The kernel's two results as the reference's stages of the same arguments, at the extended reals. Boundary by
  boundary: region 0's output is the first product; the stretch after it aggregates it; region 1 adds the bias and
  takes `max · 0` — the first layer's output —; region 2 is the second product, the next stretch its aggregation,
  region 3 the second layer's output; region 4 computes both heads at once over the weights laid side by side, and the
  last stretch cuts its two columns apart: column 0 is the first head, column 1 the second.
-/
import proofs.«167271_j47682726920388_1_alg».proof.Proof.KHost
import proofs.«167271_j47682726920388_1_alg».proof.Proof.Region0
import proofs.«167271_j47682726920388_1_alg».proof.Proof.Region1
import proofs.«167271_j47682726920388_1_alg».proof.Proof.Region2
import proofs.«167271_j47682726920388_1_alg».proof.Proof.Region3
import proofs.«167271_j47682726920388_1_alg».proof.Proof.Region4
import proofs.«167271_j47682726920388_1_alg».proof.Proof.RefSide

set_option maxRecDepth 16384

noncomputable section

namespace Cert.KernelIdeal.Fold

open Cert.KernelIdeal Cert.KernelIdeal.Gen
open Idealize.ShloMosaic Idealize.ShloMosaic.TcCoe Idealize.ShloMosaic.StableHlo
open Idealize.SL.Sem
open Idealize.ShloMosaic.Pipeline (Dat Cfg Window)
open Idealize.ShloMosaic.ValueIdx

variable (m : (ℓ : Loc nD τ sig) → Buf (Elt Ideal) ℓ) (ρ : Dev nD → PrngReg) (c : Dev nD)

/-- Region 0's output: the input features times the first weight. -/
theorem W4_v30 : W4 m ρ c (Proc.devRef .tc main_v30) = Cert.ReferenceIdeal.Read.val_main_v30 (F := Ideal) (m ((c : Thread nD τ).loc main_arg0)) (m ((c : Thread nD τ).loc main_arg2)) :=
  (W4_arr m ρ c 2).trans ((Cert.KernelIdeal.Region0.arr (V3 m ρ) c).trans (by
    show Cert.Spec.mm (W3 m ρ c (Proc.devRef .tc main_arg0)) (W3 m ρ c (Proc.devRef .tc main_arg2)) = _
    rw [W3_arg0 m ρ c, W3_arg2 m ρ c]
    exact (Cert.ReferenceIdeal.RefSide.v30_spec _ _).symm))

/-- Aggregated. -/
theorem W5_v43_ref : W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)) :=
  (W5_v43 m ρ c _ (W4_v30 m ρ c)).trans (Cert.ReferenceIdeal.RefSide.v43_eq _ _ _).symm

/-- Region 1's output: the first layer's. -/
theorem W6_v45 : W6 m ρ c (Proc.devRef .tc main_v45) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) :=
  (W6_arr m ρ c 2).trans ((Cert.KernelIdeal.Region1.arr (V5 m ρ) c).trans (by
    show Cert.Spec.biasRelu (W5 m ρ c (Proc.devRef .tc main_v43)) (W5 m ρ c (Proc.devRef .tc main_v44)) = _
    rw [W5_v43_ref m ρ c]
    exact (Cert.ReferenceIdeal.RefSide.v47_spec _ _ _ _ _ (W5_v44_row m ρ c)).symm))

/-- Region 2's output: the first layer's output times the second weight. -/
theorem W7_v46 : W7 m ρ c (Proc.devRef .tc main_v46) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Cert.KernelIdeal.Region2.arr (V6 m ρ) c).trans (by
    show Cert.Spec.mm (W6 m ρ c (Proc.devRef .tc main_v45)) (W6 m ρ c (Proc.devRef .tc main_arg4)) = _
    rw [W6_v45 m ρ c, W6_arg4 m ρ c]
    exact (Cert.ReferenceIdeal.RefSide.v48_spec _ _ _ _ _).symm))

/-- Aggregated. -/
theorem W8_v59_ref : W8 m ρ c (Proc.devRef .tc main_v59) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W8_v59 m ρ c _ (W7_v46 m ρ c)).trans (Cert.ReferenceIdeal.RefSide.v61_eq _ _ _ _ _).symm

/-- Region 3's output: the second layer's. -/
theorem W9_v61 : W9 m ρ c (Proc.devRef .tc main_v61) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Cert.KernelIdeal.Region3.arr (V8 m ρ) c).trans (by
    show Cert.Spec.biasRelu (W8 m ρ c (Proc.devRef .tc main_v59)) (W8 m ρ c (Proc.devRef .tc main_v60)) = _
    rw [W8_v59_ref m ρ c]
    exact (Cert.ReferenceIdeal.RefSide.v65_spec _ _ _ _ _ _ _ (W8_v60_row m ρ c)).symm))

/-- Region 4's output: both heads at once. -/
theorem W11_v65 : W11 m ρ c (Proc.devRef .tc main_v65)
    = Cert.Spec.heads (W10 m ρ c (Proc.devRef .tc main_v61)) (W10 m ρ c (Proc.devRef .tc main_v62)) (W10 m ρ c (Proc.devRef .tc main_v64)) :=
  (W11_arr m ρ c 3).trans (Cert.KernelIdeal.Region4.arr (V10 m ρ) c)

/-- Column 0 of both heads computed at once is the head whose weight is column 0 and whose bias is entry 0. -/
theorem heads_col0 (h : FVec Ideal Cert.Spec.SND .f32) (W2 : FVec Ideal Cert.Spec.SD2 .f32) (b2 : FVec Ideal Cert.Spec.S12 .f32)
    (W : FVec Ideal Cert.Spec.SD1 .f32) (b : FVec Ideal Cert.Spec.S1 .f32)
    (hW : ∀ k : Fin 128, W2 (ix2 k 0) = W (ix2 k 0)) (hb : b2 (ix2 0 0) = b (ix1 0)) (n : Fin 50000) :
    Cert.Spec.heads h W2 b2 (ix2 n 0) = Cert.Spec.head h W b (ix2 n 0) := by
  show (∑ k : Fin 128, h (ix2 n k) * W2 (ix2 k 0)) + b2 (ix2 0 0) = (∑ k : Fin 128, h (ix2 n k) * W (ix2 k 0)) + b (ix1 0)
  rw [hb]
  congr 1
  exact Finset.sum_congr rfl fun k _ => by rw [hW k]

/-- Column 1 is the head whose weight is column 1 and whose bias is entry 1. -/
theorem heads_col1 (h : FVec Ideal Cert.Spec.SND .f32) (W2 : FVec Ideal Cert.Spec.SD2 .f32) (b2 : FVec Ideal Cert.Spec.S12 .f32)
    (W : FVec Ideal Cert.Spec.SD1 .f32) (b : FVec Ideal Cert.Spec.S1 .f32)
    (hW : ∀ k : Fin 128, W2 (ix2 k 1) = W (ix2 k 0)) (hb : b2 (ix2 0 1) = b (ix1 0)) (n : Fin 50000) :
    Cert.Spec.heads h W2 b2 (ix2 n 1) = Cert.Spec.head h W b (ix2 n 0) := by
  show (∑ k : Fin 128, h (ix2 n k) * W2 (ix2 k 1)) + b2 (ix2 0 1) = (∑ k : Fin 128, h (ix2 n k) * W (ix2 k 0)) + b (ix1 0)
  rw [hb]
  congr 1
  exact Finset.sum_congr rfl fun k _ => by rw [hW k]

/-- The first result: column 0 of both heads is the first head. -/
theorem W12_v66 : W12 m ρ c (Proc.devRef .tc main_v66)
    = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.ReferenceIdeal.RefSide.v69_spec]
  funext i
  obtain ⟨n, z, rfl⟩ : ∃ (n : Fin 50000) (z : Fin 1), i = ix2 n z := ⟨i 0, i 1, eq_ix2 i⟩
  obtain rfl : z = 0 := Subsingleton.elim _ _
  rw [W12_v66_at m ρ c n, W11_v65 m ρ c, ← W9_v61 m ρ c, ← W10_v61 m ρ c]
  exact heads_col0 _ _ _ _ _ (W10_v62_col0 m ρ c) (W10_v64_0 m ρ c) n

/-- The second result: column 1 is the second head. -/
theorem W12_v67 : W12 m ρ c (Proc.devRef .tc main_v67)
    = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  rw [Cert.ReferenceIdeal.RefSide.v73_spec]
  funext i
  obtain ⟨n, z, rfl⟩ : ∃ (n : Fin 50000) (z : Fin 1), i = ix2 n z := ⟨i 0, i 1, eq_ix2 i⟩
  obtain rfl : z = 0 := Subsingleton.elim _ _
  rw [W12_v67_at m ρ c n, W11_v65 m ρ c, ← W9_v61 m ρ c, ← W10_v61 m ρ c]
  exact heads_col1 _ _ _ _ _ (W10_v62_col1 m ρ c) (W10_v64_1 m ρ c) n

end Cert.KernelIdeal.Fold

end
-- ==== Proof.lean ====
/-
  Two graph-convolution layers and two linear heads (a survival model over a graph of 50000 nodes and 800000 edges),
  computed by a program of five tiled kernels with host operations between them, against a plain reference.

  Over the extended reals the two programs are the same function of their arguments. Both build, from the edge list
  alone and by the same host operations, the source and target index vectors (with a self loop per node) and the
  symmetric edge weights `deg^(-1/2)(source) · deg^(-1/2)(target)`; a layer is then `relu (A (h · W) + b)` with `A` the
  gather–scale–scatter-add aggregation over the edges. The kernel computes `h · W` in ten row blocks of 5000 nodes
  (its reduced-precision casts are the identity here, and a matrix product into a zero accumulator is the plain sum over
  the contracted axis, as the reference's product is), leaves the aggregation to the same host operations, and adds the
  bias and takes `max · 0` in a second tiled kernel; the two heads it computes at once, as one product with the two
  weight columns side by side plus the two biases as a row, and cuts the two columns apart: column 0 is
  `h₂ · Wₜ + bₜ`, column 1 is `h₂ · Wₑ + bₑ`. No law beyond reading both sides index by index is needed, and none
  that would need the inputs finite.

  The frames of the two kernel programs are the generated ones; the reference's frame is its run with the results
  dropped; the idealization rewrote nothing.
-/
import proofs.«167271_j47682726920388_1_alg».proof.Defs
import proofs.«167271_j47682726920388_1_alg».proof.Proof.Gen.Kernel
import proofs.«167271_j47682726920388_1_alg».proof.Proof.Gen.Kernel.Frame
import proofs.«167271_j47682726920388_1_alg».proof.Proof.Gen.KernelIdeal
import proofs.«167271_j47682726920388_1_alg».proof.Proof.Gen.KernelIdeal.Frame
import proofs.«167271_j47682726920388_1_alg».proof.Proof.Gen.ReferenceIdeal
import proofs.«167271_j47682726920388_1_alg».proof.Proof.Gen.Pre_finite_inputs
import proofs.«167271_j47682726920388_1_alg».proof.Proof.KRun
import proofs.«167271_j47682726920388_1_alg».proof.Proof.KFold
import proofs.«167271_j47682726920388_1_alg».proof.Proof.RefRun
import proofs.«167271_j47682726920388_1_alg».proof.Proof.RefRead
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel runs and keeps its arguments
  fun m ρ _ => Cert.Kernel.Gen.frame m ρ,
  -- so does the idealized kernel
  fun m ρ _ => Cert.KernelIdeal.Gen.frame m ρ,
  -- the reference's frame is its run, the results dropped
  fun m ρ _ => (θ_run Cert.ReferenceIdeal.defs _ _).mono (fun _ h c => (h c).2.2) (Cert.ReferenceIdeal.Value.run (F := Ideal) m ρ),
  -- the idealization rewrote nothing
  trivial,
  -- both programs end with the reference's two stages of the (agreeing) arguments
  fun m ρ m' ρ' _ hagree =>
    ⟨fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
     fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
     (θ_run Cert.KernelIdeal.defs _ _).mono (fun r h c =>
        ⟨(h c).1.trans (Cert.KernelIdeal.Fold.W12_v66 m ρ c), (h c).2.1.trans (Cert.KernelIdeal.Fold.W12_v67 m ρ c), (h c).2.2⟩)
       (Cert.KernelIdeal.ValueRun.run_W12 (F := Ideal) m ρ),
     (θ_run Cert.ReferenceIdeal.defs _ _).mono (fun r h c => by
        obtain ⟨e0, e1, e2, e3, e4, e5, e6, e7, e8, e9⟩ := hagree c
        refine ⟨(h c).1.trans ?_, (h c).2.1.trans ?_, (h c).2.2⟩
        · rw [Cert.ReferenceIdeal.Read.val_main_v69_eq, e0, e1, e2, e3, e4, e5, e6, e7]
        · rw [Cert.ReferenceIdeal.Read.val_main_v73_eq, e0, e1, e2, e3, e4, e5, e8, e9])
       (Cert.ReferenceIdeal.Value.run (F := Ideal) m' ρ')⟩⟩

end Cert.Proof

end
